-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x112x112 : Shape := ⟨4, ![32, 128, 112, 112]⟩
abbrev S_ : Shape := ⟨0, ![]⟩

class Facts : Prop where
  bcast_S_S32x128x112x112 : S_.BroadcastsInDim S32x128x112x112 (![] : Fin 0 → Fin S32x128x112x112.rank)
  reducesTo_S32x128x112x112_S_d0_1_2_3 : S32x128x112x112.ReducesTo [0, 1, 2, 3] S_
  h_S_ : 0 < S_.numel

variable [Facts]

def fn {F : FTy → Type} [FloatOps F] (main_arg0 : FVec F S32x128x112x112 .f32) : IVec S_ 1 :=
  let main_v0 : FVec F S32x128x112x112 .f32 := Host.absf main_arg0
  let main_cst : FVec F S_ .f32 := constant S_ .f32 0x7F800000#32
  let main_v1 : FVec F S32x128x112x112 .f32 := broadcastInDim S32x128x112x112 ![] bcast_S_S32x128x112x112 main_cst
  let main_v2 : IVec S32x128x112x112 1 := cmpf .olt main_v0 main_v1
  let main_c : IVec S_ 1 := constantI S_ 1 1#1
  let main_v3 : IVec S_ 1 := (fun x v => Host.reduce IntOp.andi x v reducesTo_S32x128x112x112_S_d0_1_2_3 h_S_) main_v2 main_c
  main_v3
-- ==== Kernel.lean ====
abbrev S32x128x112x112 : Shape := ⟨4, ![32, 128, 112, 112]⟩
abbrev S32x64x2x112x112 : Shape := ⟨5, ![32, 64, 2, 112, 112]⟩
abbrev S32x64x112x112 : Shape := ⟨4, ![32, 64, 112, 112]⟩
abbrev S1x64x2x112x112 : Shape := ⟨5, ![1, 64, 2, 112, 112]⟩
abbrev S1x64x112x112 : Shape := ⟨4, ![1, 64, 112, 112]⟩
abbrev S1x64x1x112x112 : Shape := ⟨5, ![1, 64, 1, 112, 112]⟩

abbrev nBuf : Space → Nat
  | .hbm => 3
  | .vmem => 4
  | .smem => 0
  | _ => 0

abbrev bufTy : (tb : Table) → Fin (tcTables nBuf tb) → BufTy
  | .hbm, ⟨0, _⟩ => ⟨S32x128x112x112, .f32⟩
  | .hbm, ⟨1, _⟩ => ⟨S32x64x2x112x112, .f32⟩
  | .hbm, ⟨2, _⟩ => ⟨S32x64x112x112, .f32⟩
  | .local _ .vmem, ⟨0, _⟩ => ⟨S1x64x2x112x112, .f32⟩
  | .local _ .vmem, ⟨1, _⟩ => ⟨S1x64x2x112x112, .f32⟩
  | .local _ .vmem, ⟨2, _⟩ => ⟨S1x64x112x112, .f32⟩
  | .local _ .vmem, ⟨3, _⟩ => ⟨S1x64x112x112, .f32⟩
  | _, _ => ⟨S32x128x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x2x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x112x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x128x112x112_S32x64x2x112x112 : S32x128x112x112.ShapeCasts S32x64x2x112x112
  inb_S1x64x2x112x112_S1x64x1x112x112_0_0_0_0_0 : ∀ a, (![0, 0, 0, 0, 0] : Fin 5 → Nat) a + S1x64x1x112x112.size a ≤ S1x64x2x112x112.size a
  h_S1x64x1x112x112 : 0 < S1x64x1x112x112.numel
  shapeCasts_S1x64x1x112x112_S1x64x112x112 : S1x64x1x112x112.ShapeCasts S1x64x112x112
  inb_S1x64x2x112x112_S1x64x1x112x112_0_0_1_0_0 : ∀ a, (![0, 0, 1, 0, 0] : Fin 5 → Nat) a + S1x64x1x112x112.size a ≤ S1x64x2x112x112.size a
  inb_S1x64x112x112_S1x64x112x112_0_0_0_0 : ∀ a, (![0, 0, 0, 0] : Fin 4 → Nat) a + S1x64x112x112.size a ≤ S1x64x112x112.size a
  h_S1x64x112x112 : 0 < S1x64x112x112.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2x112x112.size a ≤ S32x64x2x112x112.size a
  hwx0_0 : ∀ i : grid0.Coords, EltTy.bits .f32 = 32 ∨ (Rect.block (s := S32x64x2x112x112) S1x64x2x112x112.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x112x112.size a ≤ S32x64x112x112.size a
  hwx0_1 : ∀ i : grid0.Coords, EltTy.bits .f32 = 32 ∨ (Rect.block (s := S32x64x112x112) S1x64x112x112.size (cc0_transform_1 i) (hinb0_1 i)).WholeWords (EltTy.packing .f32)

variable [Facts₀]

abbrev win0_0 : Pipeline.Window sig grid0 :=
  Pipeline.Window.ofSpec (Memref.whole main_v0) S1x64x2x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x112x112.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x128x112x112 : Shape := ⟨4, ![32, 128, 112, 112]⟩
abbrev S32x64x2x112x112 : Shape := ⟨5, ![32, 64, 2, 112, 112]⟩
abbrev S_ : Shape := ⟨0, ![]⟩
abbrev S32x64x112x112 : Shape := ⟨4, ![32, 64, 112, 112]⟩

abbrev nBuf : Space → Nat
  | .hbm => 4
  | .vmem => 0
  | .smem => 0
  | _ => 0

abbrev bufTy : (tb : Table) → Fin (tcTables nBuf tb) → BufTy
  | .hbm, ⟨0, _⟩ => ⟨S32x128x112x112, .f32⟩
  | .hbm, ⟨1, _⟩ => ⟨S32x64x2x112x112, .f32⟩
  | .hbm, ⟨2, _⟩ => ⟨S_, .f32⟩
  | .hbm, ⟨3, _⟩ => ⟨S32x64x112x112, .f32⟩
  | _, _ => ⟨S32x128x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S32x128x112x112_S32x64x2x112x112 : S32x128x112x112.ShapeCasts S32x64x2x112x112
  reducesTo_S32x64x2x112x112_S32x64x112x112_d2 : S32x64x2x112x112.ReducesTo [2] S32x64x112x112
  h_S_ : 0 < S_.numel

variable [Facts₀]

class Facts : Prop extends Facts₀ where

variable [Facts]
-- ==== Proof.PairMax.lean ====
/-
  The function both programs compute, and the reference's side of it.

  The input is read as a rank-5 array `x[b, c, k, h, w]` whose axis `k` has the two entries of one channel pair;
  the result is `y[b, c, h, w] = max (x[b, c, 0, h, w]) (x[b, c, 1, h, w])` on the extended reals (`pairMax`).

  A maximum taken over the pair axis starting from -∞ is that function: a fold of `max` over a two-element index
  set is `max` of the two entries and the start, and -∞ is the least extended real, so it drops out. No entry has
  to be finite for this: only that `max` is commutative and associative and that -∞ is its neutral element.
-/
import Idealize.ShloMosaic.PureOps.Ideal
import Idealize.ShloMosaic.PureOps.Ideal.Laws
import Idealize.ShloMosaic.PureOps.Reduce
import Idealize.ShloMosaic.Lib.ValueIdx

noncomputable section

namespace Cert.PairMax

open Idealize.ShloMosaic Idealize.ShloMosaic.ValueIdx

/-- The input with its channel axis split into (pair, member of the pair). -/
abbrev Src : Shape := ⟨5, ![32, 64, 2, 112, 112]⟩
/-- The result: one entry per pair. -/
abbrev Dst : Shape := ⟨4, ![32, 64, 112, 112]⟩
/-- The shape of the reduction's scalar start value. -/
abbrev Scalar0 : Shape := ⟨0, ![]⟩

/-- The larger of a pair's two entries, at every (batch, pair, row, column). -/
def pairMax (x : FVec Ideal Src .f32) : FVec Ideal Dst .f32 := fun j =>
  max (x (ix5 (j 0) (j 1) (0 : Fin 2) (j 2) (j 3))) (x (ix5 (j 0) (j 1) (1 : Fin 2) (j 2) (j 3)))

/-- A fold of a commutative, associative operation over a two-element index set combines the two entries and the start. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The word the reference starts its maximum from is -∞, below every extended real. -/
theorem max_negInf (y : Ideal .f32) : max y (Ideal.ofBits .f32 0xFF800000#32) = y := by
  simp [Ideal.ofBits, Ideal.ieee]

/-- A result index with member `k` put back on the pair axis is (b, c, k, h, w). -/
theorem lift_eq (h : Src.Reduces [2] Dst) (j : Dst.Idx) (k : Fin (Src.size 2)) :
    h.lift j k = ix5 (j 0) (j 1) (⟨k.val, k.isLt⟩ : Fin 2) (j 2) (j 3) := by
  funext c; apply Fin.ext
  fin_cases c <;> rfl

/-- The reference's reduction — a maximum over the pair axis from -∞ — is `pairMax`. -/
theorem hostMax_eq (x : FVec Ideal Src .f32) (h' : Src.ReducesTo [2] Dst) (hu : 0 < Scalar0.numel) :
    Host.reduce FloatOps.maximumf x (constant Scalar0 .f32 0xFF800000#32) h' hu = pairMax x := by
  have h : Src.Reduces [2] Dst := by decide
  funext j
  rw [Host.reduce_eq_fold_single FloatOps.maximumf x _ h' h hu j]
  have e := fold_univ_fin2 (FloatOps.maximumf (F := Ideal) (φ := .f32)) (Ideal.ofBits .f32 0xFF800000#32)
    (fun k : Fin 2 => x (ix5 (j 0) (j 1) k (j 2) (j 3)))
  have hf : (x ∘ h.lift j) = fun k : Fin 2 => x (ix5 (j 0) (j 1) k (j 2) (j 3)) :=
    funext fun k => congrArg x (lift_eq h j k)
  refine (congrArg (fun f => Finset.fold FloatOps.maximumf (Ideal.ofBits .f32 0xFF800000#32) f (Finset.univ : Finset (Fin 2))) hf).trans ?_
  refine e.trans ?_
  show max (x (ix5 (j 0) (j 1) (0 : Fin 2) (j 2) (j 3))) (max (x (ix5 (j 0) (j 1) (1 : Fin 2) (j 2) (j 3))) (Ideal.ofBits .f32 0xFF800000#32)) = _
  rw [max_negInf]
  rfl

end Cert.PairMax

end
-- ==== Proof.KernelArray.lean ====
/-
  The kernel's side: after the run the result array is `pairMax` of the reshaped input.

  Grid point `t` (one per batch entry) fetches the slab `x[t, :, :, :, :]` of the reshaped input and writes back the
  slab `y[t, :, :, :]`. Inside the slab the body reads the two members of every pair (the two loads at offsets 0 and 1
  on the pair axis) and stores their entrywise maximum, so the slab written back is the slab of `pairMax` of the whole
  reshaped input. The 32 slabs tile the result array — entry (b, c, h, w) lies in slab `b` and in no other — so the
  array after the run is `pairMax` of the reshaped input everywhere.
-/
import proofs.«139922_j70875550319036_1_alg».proof.Proof.Gen.KernelIdeal.Value
import proofs.«139922_j70875550319036_1_alg».proof.Proof.PairMax

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx
open Cert.PairMax (pairMax)

variable (m : (ℓ : Loc nD τ sig) → Buf (Elt Ideal) ℓ) (ρ : Dev nD → PrngReg)

/-- What the body leaves in the output slab at (0, c, h, w): the larger of the input slab's entries (0, c, 0, h, w)
    and (0, c, 1, h, w). -/
theorem slab_eq (x0 : Vec Ideal S1x64x2x112x112 .f32) (y : S1x64x112x112.Idx) :
    out0_1 x0 y = max (x0 (ix5 (0 : Fin 1) (y 1) (0 : Fin 2) (y 2) (y 3))) (x0 (ix5 (0 : Fin 1) (y 1) (1 : Fin 2) (y 2) (y 3))) := by
  unfold out0_1
  rw [Cert.KernelIdeal.Value.canon1_eq]
  show max (x0 (r0_0.idx (Cert.KernelIdeal.Value.ix1_0 y))) (x0 (r0_1.idx (Cert.KernelIdeal.Value.ix1_1 y))) = _
  have e0 : r0_0.idx (Cert.KernelIdeal.Value.ix1_0 y) = ix5 (0 : Fin 1) (y 1) (0 : Fin 2) (y 2) (y 3) := by
    funext a; apply Fin.ext
    match a with
    | ⟨0, _⟩ => show 0 + 1 * 0 = 0; omega
    | ⟨1, _⟩ => show 0 + 1 * (y 1).val = (y 1).val; omega
    | ⟨2, _⟩ => show 0 + 1 * 0 = 0; omega
    | ⟨3, _⟩ => show 0 + 1 * (y 2).val = (y 2).val; omega
    | ⟨4, _⟩ => show 0 + 1 * (y 3).val = (y 3).val; omega
  have e1 : r0_1.idx (Cert.KernelIdeal.Value.ix1_1 y) = ix5 (0 : Fin 1) (y 1) (1 : Fin 2) (y 2) (y 3) := by
    funext a; apply Fin.ext
    match a with
    | ⟨0, _⟩ => show 0 + 1 * 0 = 0; omega
    | ⟨1, _⟩ => show 0 + 1 * (y 1).val = (y 1).val; omega
    | ⟨2, _⟩ => show 1 + 1 * 0 = 1; omega
    | ⟨3, _⟩ => show 0 + 1 * (y 2).val = (y 2).val; omega
    | ⟨4, _⟩ => show 0 + 1 * (y 3).val = (y 3).val; omega
  rw [e0, e1]
  rfl

/-- The printed index maps over the 32 grid points: point `t` takes slab `t` of the input and of the result, at block
    index 0 on every other axis. -/
theorem idx_facts : ∀ t : Fin cfg0.N,
    win0_0.index t (0 : Fin 5) = t.val ∧ win0_0.index t (1 : Fin 5) = 0 ∧ win0_0.index t (2 : Fin 5) = 0
    ∧ win0_0.index t (3 : Fin 5) = 0 ∧ win0_0.index t (4 : Fin 5) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- The reshaped input as the region finds it, under its literal shape. -/
abbrev xarr (c : Dev nD) : Vec Ideal S32x64x2x112x112 .f32 := V m c main_v0

/-- WHAT POINT `t` WRITES BACK is slab `t` of `pairMax` of the reshaped input as the region finds it. -/
theorem flushed_eq (c : Dev nD) (t : Fin cfg0.N) :
    (dats m 0 c).flushed 1 t = ((cfg0.win 1).blk t).view.read (Elt Ideal) (pairMax (V m c main_v0)) := by
  rw [Cert.KernelIdeal.Value.flushed1]
  funext j
  show out0_1 (iblk m c 0 t) j = pairMax (V m c main_v0) (((cfg0.win 1).blk t).view.emb j)
  refine (slab_eq (iblk m c 0 t) j).trans ?_
  obtain ⟨a0, a1, a2, a3, a4, b0, b1, b2, b3⟩ := idx_facts t
  have hj0 : (j 0).val < 1 := (j 0).isLt
  have hj1 : (j 1).val < 64 := (j 1).isLt
  have hj2 : (j 2).val < 112 := (j 2).isLt
  have hj3 : (j 3).val < 112 := (j 3).isLt
  show max (xarr m c (((cfg0.win 0).blk t).view.emb (ix5 (0 : Fin 1) (j 1) (0 : Fin 2) (j 2) (j 3))))
      (xarr m c (((cfg0.win 0).blk t).view.emb (ix5 (0 : Fin 1) (j 1) (1 : Fin 2) (j 2) (j 3))))
    = max (xarr m c (ix5 ((((cfg0.win 1).blk t).view.emb j) 0) ((((cfg0.win 1).blk t).view.emb j) 1) (0 : Fin 2) ((((cfg0.win 1).blk t).view.emb j) 2) ((((cfg0.win 1).blk t).view.emb j) 3)))
      (xarr m c (ix5 ((((cfg0.win 1).blk t).view.emb j) 0) ((((cfg0.win 1).blk t).view.emb j) 1) (1 : Fin 2) ((((cfg0.win 1).blk t).view.emb j) 2) ((((cfg0.win 1).blk t).view.emb j) 3)))
  have h0 : ((cfg0.win 0).blk t).view.emb (ix5 (0 : Fin 1) (j 1) (0 : Fin 2) (j 2) (j 3))
      = ix5 ((((cfg0.win 1).blk t).view.emb j) 0) ((((cfg0.win 1).blk t).view.emb j) 1) (0 : Fin 2) ((((cfg0.win 1).blk t).view.emb j) 2) ((((cfg0.win 1).blk t).view.emb j) 3) := by
    funext a; apply Fin.ext
    match a with
    | ⟨0, _⟩ => show win0_0.index t (0 : Fin 5) * 1 + 1 * 0 = win0_1.index t (0 : Fin 4) * 1 + 1 * (j 0).val; omega
    | ⟨1, _⟩ => show win0_0.index t (1 : Fin 5) * 64 + 1 * (j 1).val = win0_1.index t (1 : Fin 4) * 64 + 1 * (j 1).val; omega
    | ⟨2, _⟩ => show win0_0.index t (2 : Fin 5) * 2 + 1 * 0 = 0; omega
    | ⟨3, _⟩ => show win0_0.index t (3 : Fin 5) * 112 + 1 * (j 2).val = win0_1.index t (2 : Fin 4) * 112 + 1 * (j 2).val; omega
    | ⟨4, _⟩ => show win0_0.index t (4 : Fin 5) * 112 + 1 * (j 3).val = win0_1.index t (3 : Fin 4) * 112 + 1 * (j 3).val; omega
  have h1 : ((cfg0.win 0).blk t).view.emb (ix5 (0 : Fin 1) (j 1) (1 : Fin 2) (j 2) (j 3))
      = ix5 ((((cfg0.win 1).blk t).view.emb j) 0) ((((cfg0.win 1).blk t).view.emb j) 1) (1 : Fin 2) ((((cfg0.win 1).blk t).view.emb j) 2) ((((cfg0.win 1).blk t).view.emb j) 3) := by
    funext a; apply Fin.ext
    match a with
    | ⟨0, _⟩ => show win0_0.index t (0 : Fin 5) * 1 + 1 * 0 = win0_1.index t (0 : Fin 4) * 1 + 1 * (j 0).val; omega
    | ⟨1, _⟩ => show win0_0.index t (1 : Fin 5) * 64 + 1 * (j 1).val = win0_1.index t (1 : Fin 4) * 64 + 1 * (j 1).val; omega
    | ⟨2, _⟩ => show win0_0.index t (2 : Fin 5) * 2 + 1 * 1 = 1; omega
    | ⟨3, _⟩ => show win0_0.index t (3 : Fin 5) * 112 + 1 * (j 2).val = win0_1.index t (2 : Fin 4) * 112 + 1 * (j 2).val; omega
    | ⟨4, _⟩ => show win0_0.index t (4 : Fin 5) * 112 + 1 * (j 3).val = win0_1.index t (3 : Fin 4) * 112 + 1 * (j 3).val; omega
  rw [h0, h1]
  rfl

/-- An entry of the result array is in point `t`'s slab iff each coordinate is in the slab's range on its axis. -/
theorem mem_slab (t : Fin cfg0.N) (i : S32x64x112x112.Idx) :
    i ∈ ((cfg0.win 1).blk t).view.set ↔ ∀ a : Fin 4, win0_1.index t a * S1x64x112x112.size a ≤ (i a).val ∧ (i a).val < win0_1.index t a * S1x64x112x112.size a + S1x64x112x112.size a := by
  show i ∈ ((View.whole main_v1).slice (win0_1.rect t)).set ↔ _
  rw [View.set_slice_whole, Rect.mem_set_unit]
  exact Iff.rfl

/-- Every entry (b, c, h, w) of the result array is in the slab of the point `b`. -/
theorem covered (i : S32x64x112x112.Idx) :
    ∃ t : Fin cfg0.N, (cfg0.win 1).flush t = true ∧ i ∈ ((cfg0.win 1).blk t).view.set := by
  have hi0 : (i 0).val < 32 := (i 0).isLt
  have hi1 : (i 1).val < 64 := (i 1).isLt
  have hi2 : (i 2).val < 112 := (i 2).isLt
  have hi3 : (i 3).val < 112 := (i 3).isLt
  refine ⟨⟨(i 0).val, by rw [show cfg0.N = 32 from N_0]; exact hi0⟩, flush0_1 _, ?_⟩
  rw [mem_slab]
  obtain ⟨a0, a1, a2, a3, a4, b0, b1, b2, b3⟩ := idx_facts ⟨(i 0).val, by rw [show cfg0.N = 32 from N_0]; exact hi0⟩
  intro a
  match a with
  | ⟨0, _⟩ => show win0_1.index _ (0 : Fin 4) * 1 ≤ (i 0).val ∧ (i 0).val < win0_1.index _ (0 : Fin 4) * 1 + 1; rw [b0]; show (i 0).val * 1 ≤ (i 0).val ∧ (i 0).val < (i 0).val * 1 + 1; omega
  | ⟨1, _⟩ => show win0_1.index _ (1 : Fin 4) * 64 ≤ (i 1).val ∧ (i 1).val < win0_1.index _ (1 : Fin 4) * 64 + 64; omega
  | ⟨2, _⟩ => show win0_1.index _ (2 : Fin 4) * 112 ≤ (i 2).val ∧ (i 2).val < win0_1.index _ (2 : Fin 4) * 112 + 112; omega
  | ⟨3, _⟩ => show win0_1.index _ (3 : Fin 4) * 112 ≤ (i 3).val ∧ (i 3).val < win0_1.index _ (3 : Fin 4) * 112 + 112; omega

/-- THE RESULT ARRAY after the run is `pairMax` of the reshaped input as the region finds it. -/
theorem final (c : Dev nD) : (dats m 0 c).arrAt 1 cfg0.N = pairMax (V m c main_v0) :=
  (dats m 0 c).arrAt_eq_of_cover 1 (pairMax (V m c main_v0)) (fun t _ => flushed_eq m c t) covered

/-- The reshaped input as the region finds it is the input's row-major relayout: the one host operation before the region. -/
theorem V_main_v0 (c : Dev nD) :
    (V m c main_v0 : Vec Ideal S32x64x2x112x112 .f32)
      = shapeCast S32x64x2x112x112 (m ((c : Thread nD τ).loc main_arg0)) shapeCasts_S32x128x112x112_S32x64x2x112x112 := by
  dsimp only [V, hostOps0]
  after_results
  rfl

/-- The kernel's run: the result array ends at `pairMax` of the input's relayout, the input unchanged. -/
theorem run : θ_run defs (onTc (τ := τ) (main (F := Ideal))) ⟨m, fun _ => 0, ρ⟩ fun r => ∀ c : Dev nD,
      r.2.mem ((c : Thread nD τ).loc main_v1)
        = pairMax (shapeCast S32x64x2x112x112 (m ((c : Thread nD τ).loc main_arg0)) shapeCasts_S32x128x112x112_S32x64x2x112x112)
      ∧ r.2.mem ((c : Thread nD τ).loc main_arg0) = m ((c : Thread nD τ).loc main_arg0) :=
  (θ_run defs _ _).mono (fun r h c => ⟨(h c).1.trans ((final m c).trans (congrArg pairMax (V_main_v0 m c))), (h c).2⟩)
    (Cert.KernelIdeal.Value.run_blocks m ρ)

end Cert.KernelIdeal.Blocks

end
-- ==== Proof.lean ====
/-
  The kernel takes, for every batch entry, channel pair, row and column, the larger of the pair's two entries:
  `y[b, c, h, w] = max (x[b, 2c, h, w]) (x[b, 2c+1, h, w])`. It splits the channel axis of `x` into (pair, member)
  by a row-major relayout, then lets each of 32 grid points load the two members of every pair of one batch entry and
  store their entrywise maximum. The reference does the same relayout and takes a maximum over the member axis,
  starting from -∞.

  On the extended reals the two agree entry by entry, for every input: the maximum of a two-element family joined with
  -∞ is the maximum of its two entries, since `max` is commutative and associative and -∞ is below everything. Nothing
  has to be finite and no entry is ever added or multiplied, so the precondition is not used.

  `PairMax` states the common function and shows the reference's reduction is it; `KernelArray` shows that what each
  grid point writes back is its slab of that function and that the slabs tile the result. Both programs read the same
  relayout of the input, which is therefore never opened. The three frames are the generated ones (the reference's is
  its generated run with the result dropped); the idealization rewrote no operation, so there is nothing to preserve.
-/
import proofs.«139922_j70875550319036_1_alg».proof.Defs
import proofs.«139922_j70875550319036_1_alg».proof.Proof.Gen.Kernel
import proofs.«139922_j70875550319036_1_alg».proof.Proof.Gen.Kernel.Skeleton
import proofs.«139922_j70875550319036_1_alg».proof.Proof.Gen.Kernel.Launch
import proofs.«139922_j70875550319036_1_alg».proof.Proof.Gen.Kernel.Points
import proofs.«139922_j70875550319036_1_alg».proof.Proof.Gen.Kernel.Frame
import proofs.«139922_j70875550319036_1_alg».proof.Proof.Gen.KernelIdeal
import proofs.«139922_j70875550319036_1_alg».proof.Proof.Gen.KernelIdeal.Skeleton
import proofs.«139922_j70875550319036_1_alg».proof.Proof.Gen.KernelIdeal.Launch
import proofs.«139922_j70875550319036_1_alg».proof.Proof.Gen.KernelIdeal.Points
import proofs.«139922_j70875550319036_1_alg».proof.Proof.Gen.KernelIdeal.Frame
import proofs.«139922_j70875550319036_1_alg».proof.Proof.Gen.ReferenceIdeal
import proofs.«139922_j70875550319036_1_alg».proof.Proof.Gen.KernelIdeal.Value
import proofs.«139922_j70875550319036_1_alg».proof.Proof.Gen.ReferenceIdeal.Run
import proofs.«139922_j70875550319036_1_alg».proof.Proof.Gen.ReferenceIdeal.Read
import proofs.«139922_j70875550319036_1_alg».proof.Proof.Gen.Pre_finite_inputs
import proofs.«139922_j70875550319036_1_alg».proof.Proof.PairMax
import proofs.«139922_j70875550319036_1_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs and leaves its input as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is three host operations; its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- Both programs end with the result array at the pairwise maximum of the input's relayout: the kernel slab by slab,
    the reference as a maximum over the member axis from -∞. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.PairMax.hostMax_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
